-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel

variable [Facts]

def fn {F : FTy → Type} [FloatOps F] (main_arg0 : FVec F S32x512x512x3 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  main_v3
-- ==== Kernel.lean ====
abbrev S32x512x512x3 : Shape := ⟨4, ![32, 512, 512, 3]⟩
abbrev S32x256x3 : Shape := ⟨3, ![32, 256, 3]⟩
abbrev S1x4x512x3 : Shape := ⟨4, ![1, 4, 512, 3]⟩
abbrev S1x256x3 : Shape := ⟨3, ![1, 256, 3]⟩
abbrev S3x384 : Shape := ⟨2, ![3, 384]⟩
abbrev S4x512x3 : Shape := ⟨3, ![4, 512, 3]⟩
abbrev S4x512x3x1 : Shape := ⟨4, ![4, 512, 3, 1]⟩
abbrev S1x1x1x384 : Shape := ⟨4, ![1, 1, 1, 384]⟩
abbrev S4x512x3x384 : Shape := ⟨4, ![4, 512, 3, 384]⟩
abbrev S512x3x384 : Shape := ⟨3, ![512, 3, 384]⟩
abbrev S3x256 : Shape := ⟨2, ![3, 256]⟩
abbrev S3 : Shape := ⟨1, ![3]⟩
abbrev S3x1 : Shape := ⟨2, ![3, 1]⟩
abbrev S256x3 : Shape := ⟨2, ![256, 3]⟩

abbrev nBuf : Space → Nat
  | .hbm => 2
  | .vmem => 5
  | .smem => 0
  | _ => 0

abbrev bufTy : (tb : Table) → Fin (tcTables nBuf tb) → BufTy
  | .hbm, ⟨0, _⟩ => ⟨S32x512x512x3, .f32⟩
  | .hbm, ⟨1, _⟩ => ⟨S32x256x3, .f32⟩
  | .local _ .vmem, ⟨0, _⟩ => ⟨S1x4x512x3, .f32⟩
  | .local _ .vmem, ⟨1, _⟩ => ⟨S1x4x512x3, .f32⟩
  | .local _ .vmem, ⟨2, _⟩ => ⟨S1x256x3, .f32⟩
  | .local _ .vmem, ⟨3, _⟩ => ⟨S1x256x3, .f32⟩
  | .local _ .vmem, ⟨4, _⟩ => ⟨S3x384, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 128], ![false, false]⟩

def k0_cond2 (i : grid0.Coords) : BitVec 1 :=
  let arg1 : BitVec 32 := BitVec.ofNat 32 (i 1).val
  let c127_i32 : BitVec 32 := 127#32
  let v29 : BitVec 1 := Scalar.cmpi .eq arg1 c127_i32
  let v30 : BitVec 32 := Scalar.extui v29
  let c0_i32_11 : BitVec 32 := 0#32
  let v31 : BitVec 1 := Scalar.cmpi .ne v30 c0_i32_11
  v31

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S3x384_S3x384_0_0 : ∀ a, (![0, 0] : Fin 2 → Nat) a + S3x384.size a ≤ S3x384.size a
  h_S3x384 : 0 < S3x384.numel
  shapeCasts_S3x384_S3x384 : S3x384.ShapeCasts S3x384
  inb_S1x4x512x3_S1x4x512x3_0_0_0_0 : ∀ a, (![0, 0, 0, 0] : Fin 4 → Nat) a + S1x4x512x3.size a ≤ S1x4x512x3.size a
  h_S1x4x512x3 : 0 < S1x4x512x3.numel
  shapeCasts_S1x4x512x3_S4x512x3 : S1x4x512x3.ShapeCasts S4x512x3
  shapeCasts_S4x512x3_S4x512x3x1 : S4x512x3.ShapeCasts S4x512x3x1
  iota_S1x1x1x384_d3_w32 : S1x1x1x384.Iotas .tc 32 [3]
  broadcasts_S4x512x3x1_S4x512x3x384 : S4x512x3x1.Broadcasts S4x512x3x384
  broadcasts_S1x1x1x384_S4x512x3x384 : S1x1x1x384.Broadcasts S4x512x3x384
  natLt_1_32 : 1 < 32
  reduces_S4x512x3x384_S512x3x384 : S4x512x3x384.Reduces [0] S512x3x384
  reduces_S512x3x384_S3x384 : S512x3x384.Reduces [0] S3x384
  inb_S3x384_S3x256_0_1 : ∀ a, (![0, 1] : Fin 2 → Nat) a + S3x256.size a ≤ S3x384.size a
  h_S3x256 : 0 < S3x256.numel
  reduces_S3x256_S3 : S3x256.Reduces [1] S3
  shapeCasts_S3_S3x1 : S3.ShapeCasts S3x1
  broadcasts_S3x1_S3x256 : S3x1.Broadcasts S3x256
  transposes_S3x256_p1_0_S256x3 : S3x256.Transposes [1, 0] S256x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x3.size a ≤ S32x512x512x3.size a
  hwx0_0 : ∀ i : grid0.Coords, EltTy.bits .f32 = 32 ∨ (Rect.block (s := S32x512x512x3) S1x4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S32x256x3.size a
  hwx0_1 : ∀ i : grid0.Coords, EltTy.bits .f32 = 32 ∨ (Rect.block (s := S32x256x3) S1x256x3.size (cc0_transform_1 i) (hinb0_1 i)).WholeWords (EltTy.packing .f32)

variable [Facts₀]

abbrev win0_0 : Pipeline.Window sig grid0 :=
  Pipeline.Window.ofSpec (Memref.whole main_arg0) S1x4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x512x512x3 : Shape := ⟨4, ![32, 512, 512, 3]⟩
abbrev S_ : Shape := ⟨0, ![]⟩
abbrev S32 : Shape := ⟨1, ![32]⟩
abbrev S32x1x1x1 : Shape := ⟨4, ![32, 1, 1, 1]⟩
abbrev S3 : Shape := ⟨1, ![3]⟩
abbrev S1x1x1x3 : Shape := ⟨4, ![1, 1, 1, 3]⟩
abbrev S32x1x1x3 : Shape := ⟨4, ![32, 1, 1, 3]⟩
abbrev S25165824 : Shape := ⟨1, ![25165824]⟩
abbrev S24672 : Shape := ⟨1, ![24672]⟩
abbrev S25165824x1 : Shape := ⟨2, ![25165824, 1]⟩
abbrev S32x3x257 : Shape := ⟨3, ![32, 3, 257]⟩
abbrev S32x3x256 : Shape := ⟨3, ![32, 3, 256]⟩
abbrev S32x3 : Shape := ⟨2, ![32, 3]⟩
abbrev S32x3x1 : Shape := ⟨3, ![32, 3, 1]⟩
abbrev S32x256x3 : Shape := ⟨3, ![32, 256, 3]⟩

abbrev nBuf : Space → Nat
  | .hbm => 49
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S32x512x512x3, .f32⟩
  | .hbm, ⟨5, _⟩ => ⟨S32x512x512x3, .f32⟩
  | .hbm, ⟨6, _⟩ => ⟨S32x512x512x3, .f32⟩
  | .hbm, ⟨7, _⟩ => ⟨S_, .i32⟩
  | .hbm, ⟨8, _⟩ => ⟨S_, .i32⟩
  | .hbm, ⟨9, _⟩ => ⟨S_, .f32⟩
  | .hbm, ⟨10, _⟩ => ⟨S32x512x512x3, .f32⟩
  | .hbm, ⟨11, _⟩ => ⟨S32x512x512x3, .f32⟩
  | .hbm, ⟨12, _⟩ => ⟨S_, .f32⟩
  | .hbm, ⟨13, _⟩ => ⟨S32x512x512x3, .f32⟩
  | .hbm, ⟨14, _⟩ => ⟨S32x512x512x3, .f32⟩
  | .hbm, ⟨15, _⟩ => ⟨S32x512x512x3, .i32⟩
  | .hbm, ⟨16, _⟩ => ⟨S32, .i32⟩
  | .hbm, ⟨17, _⟩ => ⟨S32x1x1x1, .i32⟩
  | .hbm, ⟨18, _⟩ => ⟨S3, .i32⟩
  | .hbm, ⟨19, _⟩ => ⟨S1x1x1x3, .i32⟩
  | .hbm, ⟨20, _⟩ => ⟨S_, .i32⟩
  | .hbm, ⟨21, _⟩ => ⟨S32x1x1x1, .i32⟩
  | .hbm, ⟨22, _⟩ => ⟨S32x1x1x1, .i32⟩
  | .hbm, ⟨23, _⟩ => ⟨S32x1x1x3, .i32⟩
  | .hbm, ⟨24, _⟩ => ⟨S32x1x1x3, .i32⟩
  | .hbm, ⟨25, _⟩ => ⟨S32x1x1x3, .i32⟩
  | .hbm, ⟨26, _⟩ => ⟨S_, .i32⟩
  | .hbm, ⟨27, _⟩ => ⟨S32x1x1x3, .i32⟩
  | .hbm, ⟨28, _⟩ => ⟨S32x1x1x3, .i32⟩
  | .hbm, ⟨29, _⟩ => ⟨S32x512x512x3, .i32⟩
  | .hbm, ⟨30, _⟩ => ⟨S32x512x512x3, .i32⟩
  | .hbm, ⟨31, _⟩ => ⟨S25165824, .i32⟩
  | .hbm, ⟨32, _⟩ => ⟨S_, .f32⟩
  | .hbm, ⟨33, _⟩ => ⟨S25165824, .f32⟩
  | .hbm, ⟨34, _⟩ => ⟨S_, .f32⟩
  | .hbm, ⟨35, _⟩ => ⟨S24672, .f32⟩
  | .hbm, ⟨36, _⟩ => ⟨S25165824x1, .i32⟩
  | .hbm, ⟨37, _⟩ => ⟨S24672, .f32⟩
  | .hbm, ⟨38, _⟩ => ⟨S32x3x257, .f32⟩
  | .hbm, ⟨39, _⟩ => ⟨S32x3x256, .f32⟩
  | .hbm, ⟨40, _⟩ => ⟨S_, .f32⟩
  | .hbm, ⟨41, _⟩ => ⟨S32x3, .f32⟩
  | .hbm, ⟨42, _⟩ => ⟨S32x3x1, .f32⟩
  | .hbm, ⟨43, _⟩ => ⟨S_, .f32⟩
  | .hbm, ⟨44, _⟩ => ⟨S32x3x1, .f32⟩
  | .hbm, ⟨45, _⟩ => ⟨S32x3x1, .f32⟩
  | .hbm, ⟨46, _⟩ => ⟨S32x3x256, .f32⟩
  | .hbm, ⟨47, _⟩ => ⟨S32x3x256, .f32⟩
  | .hbm, ⟨48, _⟩ => ⟨S32x256x3, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S_S32x512x512x3 : S_.BroadcastsInDim S32x512x512x3 (![] : Fin 0 → Fin S32x512x512x3.rank)
  bcast_S32_S32x1x1x1_0 : S32.BroadcastsInDim S32x1x1x1 (![0] : Fin 1 → Fin S32x1x1x1.rank)
  bcast_S3_S1x1x1x3_3 : S3.BroadcastsInDim S1x1x1x3 (![3] : Fin 1 → Fin S1x1x1x3.rank)
  bcast_S_S32x1x1x1 : S_.BroadcastsInDim S32x1x1x1 (![] : Fin 0 → Fin S32x1x1x1.rank)
  bcast_S32x1x1x1_S32x1x1x3_0_1_2_3 : S32x1x1x1.BroadcastsInDim S32x1x1x3 (![0, 1, 2, 3] : Fin 4 → Fin S32x1x1x3.rank)
  bcast_S1x1x1x3_S32x1x1x3_0_1_2_3 : S1x1x1x3.BroadcastsInDim S32x1x1x3 (![0, 1, 2, 3] : Fin 4 → Fin S32x1x1x3.rank)
  bcast_S_S32x1x1x3 : S_.BroadcastsInDim S32x1x1x3 (![] : Fin 0 → Fin S32x1x1x3.rank)
  bcast_S32x1x1x3_S32x512x512x3_0_1_2_3 : S32x1x1x3.BroadcastsInDim S32x512x512x3 (![0, 1, 2, 3] : Fin 4 → Fin S32x512x512x3.rank)
  shapeCasts_S32x512x512x3_S25165824 : S32x512x512x3.ShapeCasts S25165824
  bcast_S_S25165824 : S_.BroadcastsInDim S25165824 (![] : Fin 0 → Fin S25165824.rank)
  bcast_S_S24672 : S_.BroadcastsInDim S24672 (![] : Fin 0 → Fin S24672.rank)
  bcast_S25165824_S25165824x1_0 : S25165824.BroadcastsInDim S25165824x1 (![0] : Fin 1 → Fin S25165824x1.rank)
  shapeCasts_S24672_S32x3x257 : S24672.ShapeCasts S32x3x257
  slices_S32x3x257_S32x3x256_0_0_1 : S32x3x257.Slices ![0, 0, 1] S32x3x256
  reducesTo_S32x3x256_S32x3_d2 : S32x3x256.ReducesTo [2] S32x3
  h_S_ : 0 < S_.numel
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x256_0_1_2 : S32x3x1.BroadcastsInDim S32x3x256 (![0, 1, 2] : Fin 3 → Fin S32x3x256.rank)
  transposes_S32x3x256_S32x256x3_0_2_1 : S32x3x256.Transposes [0, 2, 1] S32x256x3
  scatter_S24672_S25165824x1_S25165824_n_0_0_1_wf : ScatterDims.WF S24672 S25165824x1 S25165824 [] [0] [0] 1

variable [Facts₀]

def scatter_S24672_S25165824x1_S25165824_n_0_0_1 : ScatterDims S24672 S25165824x1 S25165824 where
  updateWindowDims := []
  insertedWindowDims := [0]
  scatterDimsToOperandDims := [0]
  indexVectorDim := 1
  wf := scatter_S24672_S25165824x1_S25165824_n_0_0_1_wf

class Facts : Prop extends Facts₀ where

variable [Facts]
-- ==== Proof.HistPieces.lean ====
/-
  What one grid point leaves behind, case by case, as the body's own arithmetic.

  The accumulator is a [3, 384] scratch carried from tile to tile.  At the first tile of an image it is stored as zeros
  and then as zeros plus the tile's counts; at every later tile it is stored as what the tile before left plus the
  tile's counts.  At the last tile the output block is stored as the normalized, transposed columns 1 … 256 of the
  accumulator just stored.
-/
import proofs.«125191_j85787676770927_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The offsets of a whole-buffer rectangle are all zero, at the two ranks the body uses. -/
theorem zeros2 : (![0, 0] : Fin S3x384.rank → Nat) = fun _ => 0 := by
  funext a; match a with | ⟨0, _⟩ => rfl | ⟨1, _⟩ => rfl
theorem zeros3 : (![0, 0, 0] : Fin S1x256x3.rank → Nat) = fun _ => 0 := by
  funext a; match a with | ⟨0, _⟩ => rfl | ⟨1, _⟩ => rfl | ⟨2, _⟩ => rfl
theorem zeros4 : (![0, 0, 0, 0] : Fin S1x4x512x3.rank → Nat) = fun _ => 0 := by
  funext a; match a with | ⟨0, _⟩ => rfl | ⟨1, _⟩ => rfl | ⟨2, _⟩ => rfl | ⟨3, _⟩ => rfl

/-- The rectangle through which the last tile reads columns 1 … 256 of the accumulator. -/
abbrev keptCols : Rect S3x384 := Rect.unit (s := S3x384) ![0, 1] S3x256.size inb_S3x384_S3x256_0_1

/-- First tile of an image: the accumulator ends at zeros plus the tile's counts. -/
theorem scratch_first (c : Dev nD) (i : grid0.Coords) (arg2 : Memref sig .tc .vmem S1x4x512x3 .f32) (harg2 : arg2.IsWhole) (arg3 : Memref sig .tc .vmem S1x256x3 .f32) (harg3 : arg3.IsWhole) (arg4 : Memref sig .tc .vmem S3x384 .f32) (harg4 : arg4.IsWhole) (hc0 : cond0_0 i) (hc1 : ¬cond0_1 i)
    (x0 : Vec F S1x4x512x3 .f32) :
    sout0_A_0 c i arg2 harg2 arg3 harg3 arg4 harg4 hc0 hc1 x0 = k0_pay2 x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S3x384) zeros2]
  simp only [View.readAt_eq_ld, harg2.read_unread, View.ld_unit_zero (S := S1x4x512x3) zeros4,
    View.readCov_unit_zero (S := S3x384) _ zeros2]

/-- A middle tile: the accumulator ends at what the tile before left plus the tile's counts. -/
theorem scratch_middle (c : Dev nD) (i : grid0.Coords) (arg2 : Memref sig .tc .vmem S1x4x512x3 .f32) (harg2 : arg2.IsWhole) (arg3 : Memref sig .tc .vmem S1x256x3 .f32) (harg3 : arg3.IsWhole) (arg4 : Memref sig .tc .vmem S3x384 .f32) (harg4 : arg4.IsWhole) (hc0 : ¬cond0_0 i) (hc1 : ¬cond0_1 i)
    (x0 : Vec F S1x4x512x3 .f32) (xs0 : Vec F S3x384 .f32) :
    sout0_B_0 c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero (S := S3x384) zeros2]
  simp only [View.readAt_eq_ld, harg2.read_unread, harg4.read_unread, View.ld_unit_zero (S := S1x4x512x3) zeros4,
    View.ld_unit_zero (S := S3x384) zeros2]

/-- The last tile: the accumulator likewise. -/
theorem scratch_last (c : Dev nD) (i : grid0.Coords) (arg2 : Memref sig .tc .vmem S1x4x512x3 .f32) (harg2 : arg2.IsWhole) (arg3 : Memref sig .tc .vmem S1x256x3 .f32) (harg3 : arg3.IsWhole) (arg4 : Memref sig .tc .vmem S3x384 .f32) (harg4 : arg4.IsWhole) (hc0 : ¬cond0_0 i) (hc1 : cond0_1 i)
    (x0 : Vec F S1x4x512x3 .f32) (xs0 : Vec F S3x384 .f32) :
    sout0_C_0 c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero (S := S3x384) zeros2]
  simp only [View.readAt_eq_ld, harg2.read_unread, harg4.read_unread, View.ld_unit_zero (S := S1x4x512x3) zeros4,
    View.ld_unit_zero (S := S3x384) zeros2]

/-- The last tile's output block: the normalized transpose of columns 1 … 256 of the accumulator it has just stored. -/
theorem out_last (c : Dev nD) (i : grid0.Coords) (arg2 : Memref sig .tc .vmem S1x4x512x3 .f32) (harg2 : arg2.IsWhole) (arg3 : Memref sig .tc .vmem S1x256x3 .f32) (harg3 : arg3.IsWhole) (arg4 : Memref sig .tc .vmem S3x384 .f32) (harg4 : arg4.IsWhole) (hc0 : ¬cond0_0 i) (hc1 : cond0_1 i)
    (x0 : Vec F S1x4x512x3 .f32) (xs0 : Vec F S3x384 .f32) :
    out0_C_1 c i arg2 harg2 arg3 harg3 arg4 harg4 hc0 hc1 x0 xs0
      = k0_pay3 (fun j => k0_pay2 x0 xs0 (keptCols.idx j)) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero (S := S1x256x3) zeros3]
  rw [View.readCov_eq_canon', View.canon_unit_zero (S := S3x384) zeros2]
  simp only [View.readAt_eq_ld, harg2.read_unread, harg4.read_unread, View.ld_unit_zero (S := S1x4x512x3) zeros4,
    View.ld_unit_zero (S := S3x384) zeros2]
  rfl

end Cert.KernelIdeal.Pieces

end
-- ==== Proof.HistSpec.lean ====
/-
  The normalized histogram, as one function of the image array.

  A pixel value v falls in the bin  clip (floor (v / width), 0, 256)  read as a 32-bit word, where width is the
  binary value 0x3B7F00FF (the single-precision 1/257).  The clip keeps the floored quotient inside [0, 256] whatever
  v is, so the word is one of 0 … 256.  For image b and channel c the count of bin k is the number of pixels (h, w)
  whose word is k, written as a sum of ones and zeros; bin 0 is dropped, and the result at (b, k, c) is the count of
  bin k + 1 divided by the larger of the total of bins 1 … 256 and the binary value 0x33D6BF95.
-/
import Idealize.ShloMosaic.PureOps.Ideal
import Idealize.ShloMosaic.PureOps.Ideal.Laws
import Idealize.ShloMosaic.Lib.ValueIdx

noncomputable section

namespace Cert.Hist

open Idealize.ShloMosaic Idealize.ShloMosaic.ValueIdx

/-- The bin width's binary value and the floor under the normalizing total. -/
abbrev width : EReal := Ideal.ofBits .f32 0x3B7F00FF#32
abbrev floorTotal : EReal := Ideal.ofBits .f32 0x33D6BF95#32

/-- The clip's two bounds, as the programs write them: the integers 0 and 256 read signed. -/
abbrev lo : EReal := (((0#32 : BitVec 32).toInt : ℝ) : EReal)
abbrev hi : EReal := (((256#32 : BitVec 32).toInt : ℝ) : EReal)

theorem lo_eq : lo = 0 := by
  show (((0#32 : BitVec 32).toInt : ℝ) : EReal) = 0
  rw [show (0#32 : BitVec 32).toInt = 0 from by decide]; simp

theorem hi_eq : hi = ((256 : ℝ) : EReal) := by
  show (((256#32 : BitVec 32).toInt : ℝ) : EReal) = _
  rw [show (256#32 : BitVec 32).toInt = 256 from by decide]; simp

/-- The pattern 0x3F800000 (the number each pixel adds to its segment) denotes 1. -/
theorem ofBits_one : Ideal.ofBits .f32 0x3F800000#32 = 1 := by
  simp [Ideal.ofBits, Ideal.ieee, -EReal.coe_mul]; norm_num

/-- The floor's value is below the bin width's, so the larger of the two is the width. -/
theorem max_width_floorTotal : max width floorTotal = width := by
  refine max_eq_left ?_
  show Ideal.ofBits .f32 0x33D6BF95#32 ≤ Ideal.ofBits .f32 0x3B7F00FF#32
  simp [Ideal.ofBits, Ideal.ieee, -EReal.coe_mul]
  norm_num

/-- The bin word of a pixel value. -/
def binWord (v : EReal) : BitVec 32 :=
  Ideal.fptosi 32 (min hi (max lo (Ideal.liftRound Int.floor (Ideal.div v width))))

/-- A value between 0 and 256 converts to a word between 0 and 256. -/
theorem fptosi_toNat_le (z : EReal) (h0 : 0 ≤ z) (h1 : z ≤ ((256 : ℝ) : EReal)) : (Ideal.fptosi 32 z).toNat ≤ 256 := by
  induction z using EReal.rec with
  | bot => exact absurd h0 (by simp)
  | top => exact absurd h1 (by simp)
  | coe r =>
    have hr0 : 0 ≤ r := by exact_mod_cast h0
    have hr1 : r ≤ 256 := by exact_mod_cast h1
    have hf0 : 0 ≤ ⌊r⌋ := Int.floor_nonneg.mpr hr0
    have hf1 : ⌊r⌋ ≤ 256 := by
      have : ⌊r⌋ ≤ ⌊(256 : ℝ)⌋ := Int.floor_le_floor hr1
      simpa using this
    rw [Ideal.fptosi, Ideal.toIntClamped_coe, if_pos hr0, BitVec.toNat_ofInt]
    omega

/-- Every bin word is one of 0 … 256. -/
theorem binWord_le (v : EReal) : (binWord v).toNat ≤ 256 := by
  unfold binWord
  refine fptosi_toNat_le _ ?_ ?_
  · rw [lo_eq]; exact le_min (by rw [hi_eq]; exact_mod_cast (by norm_num : (0 : ℝ) ≤ 256)) (le_max_left _ _)
  · rw [hi_eq]; exact min_le_left _ _

/-- One where the pixel value falls in bin k, zero elsewhere. -/
def hit (v : EReal) (k : ℕ) : EReal := if (binWord v).toNat = k then 1 else 0

/-- The count of bin k among the pixels of image b, channel c. -/
def count (x : (⟨4, ![32, 512, 512, 3]⟩ : Shape).Idx → EReal) (b : Fin 32) (c : Fin 3) (k : ℕ) : EReal :=
  ∑ h : Fin 512, ∑ w : Fin 512, hit (x (ix4 b h w c)) k

/-- Normalizing one channel's 256 kept counts: each over the larger of their total and the floor. -/
def normalize (g : Fin 256 → EReal) (k : Fin 256) : EReal :=
  Ideal.div (g k) (max (∑ k' : Fin 256, g k') floorTotal)

/-- THE RESULT: at (b, k, c) the normalized count of bin k + 1 of image b, channel c. -/
def result (x : (⟨4, ![32, 512, 512, 3]⟩ : Shape).Idx → EReal) : (⟨3, ![32, 256, 3]⟩ : Shape).Idx → EReal :=
  fun j => normalize (fun k' : Fin 256 => count x (j 0) (j 2) (k'.val + 1)) (j 1)

theorem result_apply (x : (⟨4, ![32, 512, 512, 3]⟩ : Shape).Idx → EReal) (b : Fin 32) (k : Fin 256) (c : Fin 3) :
    result x (ix3 b k c) = normalize (fun k' : Fin 256 => count x b c (k'.val + 1)) k := rfl

end Cert.Hist

end
-- ==== Proof.HistPayload.lean ====
/-
  The body's arithmetic read at an index, over the extended reals.

  A tile is a [1, 4, 512, 3] block of pixels.  Its one-hot comparison has, at (h, w, c, k), a one where the bin word of
  pixel (h, w, c) is the lane number k and a zero elsewhere; summing over the 4 rows and then the 512 columns gives the
  tile's count of bin k in channel c, which is added to the accumulator.  The final store divides each of columns
  1 … 256 of the accumulator by the larger of their total and the floor, and transposes.
-/
import proofs.«125191_j85787676770927_1_alg».proof.Proof.Gen.KernelIdeal.Skeleton
import proofs.«125191_j85787676770927_1_alg».proof.Proof.HistSpec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.Hist

open Cert.KernelIdeal Cert.KernelIdeal.Gen
open Idealize.ShloMosaic Idealize.ShloMosaic.ValueIdx

/-- A word comparison widened to 32 bits and read as a number: one where the words are equal, zero elsewhere. -/
theorem indicator_eq (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  unfold IntOp.cmpi
  by_cases h : a = b
  · rw [if_pos h, show (a == b) = true from by simp [h],
      show ((BitVec.ofBool true).setWidth 32).toInt = 1 from by decide]
    simp
  · rw [if_neg h, show (a == b) = false from by simp [h],
      show ((BitVec.ofBool false).setWidth 32).toInt = 0 from by decide]
    simp

/-- A word equals the word of a small number exactly when its value is that number. -/
theorem eq_ofNat_iff (a : BitVec 32) (k : ℕ) (hk : k < 384) : a = BitVec.ofNat 32 k ↔ a.toNat = k := by
  rw [BitVec.toNat_eq, BitVec.toNat_ofNat, Nat.mod_eq_of_lt (by omega)]

/-- The two sums of a tile: over the 4 rows, then over the 512 columns. -/
theorem tileSum_apply (oh : FVec Ideal S4x512x3x384 .f32) (ch : Fin 3) (k : Fin 384) :
    multiReduction .add [0] S3x384
        (multiReduction .add [0] S512x3x384 oh 0x00000000#32 reduces_S4x512x3x384_S512x3x384 (.inl rfl) rfl)
        0x00000000#32 reduces_S512x3x384_S3x384 (.inl rfl) rfl (ix2 ch k)
      = ∑ w : Fin 512, ∑ h : Fin 4, oh (ix4 h w ch k) := by
  refine (Ideal.multiReduction_add_single _ 0x00000000#32 reduces_S512x3x384_S3x384 (.inl rfl) rfl (ix2 ch k)).trans ?_
  refine Finset.sum_congr rfl fun w _ => ?_
  refine (Ideal.multiReduction_add_single oh 0x00000000#32 reduces_S4x512x3x384_S512x3x384 (.inl rfl) rfl _).trans ?_
  refine Finset.sum_congr rfl fun h _ => ?_
  refine congrArg oh (funext fun a => Fin.ext ?_)
  match a with
  | ⟨0, _⟩ => rfl
  | ⟨1, _⟩ => rfl
  | ⟨2, _⟩ => rfl
  | ⟨3, _⟩ => rfl

/-- The one-hot comparison read at (h, w, c, k): whether the bin word of pixel (h, w, c) is k. -/
theorem onehot_apply (bins : IVec S4x512x3 32) (h : Fin 4) (w : Fin 512) (ch : Fin 3) (k : Fin 384) :
    (sitofp .f32 (extui 32 (cmpi .eq (broadcastTo S4x512x3x384 (shapeCast S4x512x3x1 bins shapeCasts_S4x512x3_S4x512x3x1) broadcasts_S4x512x3x1_S4x512x3x384) (broadcastTo S4x512x3x384 (iota .tc S1x1x1x384 32 [3] iota_S1x1x1x384_d3_w32) broadcasts_S1x1x1x384_S4x512x3x384)) natLt_1_32) : FVec Ideal S4x512x3x384 .f32) (ix4 h w ch k)
      = if (bins (ix3 h w ch)).toNat = k.val then (1 : EReal) else 0 := by
  have e1 : (broadcastTo S4x512x3x384 (shapeCast S4x512x3x1 bins shapeCasts_S4x512x3_S4x512x3x1) broadcasts_S4x512x3x1_S4x512x3x384) (ix4 h w ch k) = bins (ix3 h w ch) := by
    refine (broadcastTo_apply _ broadcasts_S4x512x3x1_S4x512x3x384 (ix4 h w ch k) (ix4 h w ch (0 : Fin 1)) fun a => ?_).trans ?_
    · match a with
      | ⟨0, _⟩ => show h.val = if (4 : Nat) = 1 then 0 else h.val; rw [if_neg (by decide)]
      | ⟨1, _⟩ => show w.val = if (512 : Nat) = 1 then 0 else w.val; rw [if_neg (by decide)]
      | ⟨2, _⟩ => show ch.val = if (3 : Nat) = 1 then 0 else ch.val; rw [if_neg (by decide)]
      | ⟨3, _⟩ => show 0 = if (1 : Nat) = 1 then 0 else k.val; rw [if_pos rfl]
    · exact shapeCast_apply bins shapeCasts_S4x512x3_S4x512x3x1 (ix4 h w ch (0 : Fin 1)) (ix3 h w ch) (by
        rw [Shape.rowMajor_val_three, Shape.rowMajor_val_four]
        show (h.val * 512 + w.val) * 3 + ch.val = ((h.val * 512 + w.val) * 3 + ch.val) * 1 + 0
        omega)
  have e2 : (broadcastTo S4x512x3x384 (iota .tc S1x1x1x384 32 [3] iota_S1x1x1x384_d3_w32) broadcasts_S1x1x1x384_S4x512x3x384) (ix4 h w ch k) = BitVec.ofNat 32 k.val := by
    refine (broadcastTo_apply _ broadcasts_S1x1x1x384_S4x512x3x384 (ix4 h w ch k)
      (ix4 (0 : Fin 1) (0 : Fin 1) (0 : Fin 1) k) fun a => ?_).trans ?_
    · match a with
      | ⟨0, _⟩ => show 0 = if (1 : Nat) = 1 then 0 else h.val; rw [if_pos rfl]
      | ⟨1, _⟩ => show 0 = if (1 : Nat) = 1 then 0 else w.val; rw [if_pos rfl]
      | ⟨2, _⟩ => show 0 = if (1 : Nat) = 1 then 0 else ch.val; rw [if_pos rfl]
      | ⟨3, _⟩ => show k.val = if (384 : Nat) = 1 then 0 else k.val; rw [if_neg (by decide)]
    · exact iota_single_apply .tc S1x1x1x384 32 3 iota_S1x1x1x384_d3_w32 _
  show FloatOps.sitofp (F := Ideal) .f32 ((IntOp.cmpi .eq ((broadcastTo S4x512x3x384 (shapeCast S4x512x3x1 bins shapeCasts_S4x512x3_S4x512x3x1) broadcasts_S4x512x3x1_S4x512x3x384) (ix4 h w ch k)) ((broadcastTo S4x512x3x384 (iota .tc S1x1x1x384 32 [3] iota_S1x1x1x384_d3_w32) broadcasts_S1x1x1x384_S4x512x3x384) (ix4 h w ch k))).setWidth 32) = _
  rw [e1, e2, indicator_eq]
  exact if_congr (eq_ofNat_iff _ _ k.isLt) rfl rfl

/-- The bin word the body computes for pixel (h, w, c) of a block is the specification's. -/
theorem bins_apply (x0 : Vec Ideal S1x4x512x3 .f32) (h : Fin 4) (w : Fin 512) (ch : Fin 3) :
    (fptosi 32 (minimumf (broadcast S4x512x3 (Scalar.sitofp (F := Ideal) .f32 256#32))
        (maximumf (broadcast S4x512x3 (Scalar.sitofp (F := Ideal) .f32 0#32))
          (floor (divf (shapeCast S4x512x3 x0 shapeCasts_S1x4x512x3_S4x512x3)
            (broadcast S4x512x3 (Scalar.ofBits (F := Ideal) .f32 0x3B7F00FF#32))))))
      : IVec S4x512x3 32) (ix3 h w ch) = binWord (x0 (ix4 (0 : Fin 1) h w ch)) := by
  show Ideal.fptosi 32 (min hi (max lo (Ideal.liftRound Int.floor
    (Ideal.div (shapeCast S4x512x3 x0 shapeCasts_S1x4x512x3_S4x512x3 (ix3 h w ch)) width)))) = _
  rw [shapeCast_1abc_abc_apply]
  rfl

/-- The zero fill. -/
theorem pay1_apply (ch : Fin 3) (k : Fin 384) : k0_pay1 (F := Ideal) (ix2 ch k) = 0 := by
  unfold k0_pay1
  refine (congrFun (shapeCast_self _ shapeCasts_S3x384_S3x384) (ix2 ch k)).trans ?_
  exact Ideal.ofBits_zero_f32

/-- THE TILE STEP at (c, k): the accumulator's element plus the tile's count of bin k in channel c. -/
theorem pay2_apply (x0 : Vec Ideal S1x4x512x3 .f32) (acc : Vec Ideal S3x384 .f32) (ch : Fin 3) (k : Fin 384) :
    k0_pay2 (F := Ideal) x0 acc (ix2 ch k)
      = acc (ix2 ch k) + ∑ w : Fin 512, ∑ h : Fin 4, hit (x0 (ix4 (0 : Fin 1) h w ch)) k.val := by
  unfold k0_pay2
  dsimp only
  refine (congrFun (shapeCast_self _ shapeCasts_S3x384_S3x384) (ix2 ch k)).trans ?_
  refine congrArg (fun z => acc (ix2 ch k) + z) ?_
  refine (tileSum_apply _ ch k).trans ?_
  refine Finset.sum_congr rfl fun w _ => Finset.sum_congr rfl fun h _ => ?_
  refine (onehot_apply _ h w ch k).trans ?_
  exact congrArg (fun b : BitVec 32 => if b.toNat = k.val then (1 : EReal) else 0) (bins_apply x0 h w ch)

/-- THE FINAL STORE at (0, k, c): the kept column k of channel c over the larger of the channel's total and the floor. -/
theorem pay3_apply (v : Vec Ideal S3x256 .f32) (u : Fin 1) (k : Fin 256) (ch : Fin 3) :
    k0_pay3 (F := Ideal) v (ix3 u k ch) = normalize (fun k' : Fin 256 => v (ix2 ch k')) k := by
  unfold k0_pay3
  dsimp only
  refine (shapeCast_ab_1ab_apply _ shapeCasts_S256x3_S1x256x3 u k ch).trans ?_
  refine (transpose_ix2_apply _ transposes_S3x256_p1_0_S256x3 k ch).trans ?_
  unfold normalize
  refine congrArg (Ideal.div (v (ix2 ch k))) ?_
  refine (broadcastTo_apply _ broadcasts_S3x1_S3x256 (ix2 ch k) (ix2 ch (0 : Fin 1)) fun a => ?_).trans ?_
  · match a with
    | ⟨0, _⟩ => show ch.val = if (3 : Nat) = 1 then 0 else ch.val; rw [if_neg (by decide)]
    | ⟨1, _⟩ => show 0 = if (1 : Nat) = 1 then 0 else k.val; rw [if_pos rfl]
  refine congrArg (fun z => max z floorTotal) ?_
  refine (shapeCast_apply _ shapeCasts_S3_S3x1 (ix2 ch (0 : Fin 1)) (ix1 ch) (by
    rw [Shape.rowMajor_val_one, Shape.rowMajor_val_two]
    show ch.val = ch.val * 1 + 0
    omega)).trans ?_
  refine (Ideal.multiReduction_add_single v 0x00000000#32 reduces_S3x256_S3 (.inl rfl) rfl (ix1 ch)).trans ?_
  refine Finset.sum_congr rfl fun k' _ => congrArg v (funext fun a => Fin.ext ?_)
  match a with
  | ⟨0, _⟩ => rfl
  | ⟨1, _⟩ => rfl

end Cert.Hist

end
-- ==== Proof.HistFold.lean ====
/-
  The accumulator as a sum over tiles, and the sum over all 128 tiles of an image as the image's count.

  Grid point n works on image n / 128 and on rows 4 (n mod 128) … 4 (n mod 128) + 3 of it.  Its addend to the
  accumulator at (c, k) is the number of pixels of those rows, in channel c, whose bin word is k.  After point n the
  accumulator is the sum of the addends of the points of the same image up to n; after the image's last point that is a
  sum over 128 tiles of 4 rows each, which is the sum over the image's 512 rows.
-/
import proofs.«125191_j85787676770927_1_alg».proof.Proof.HistPayload

noncomputable section

namespace Cert.Hist

open Cert.KernelIdeal Cert.KernelIdeal.Gen
open Idealize.ShloMosaic Idealize.ShloMosaic.ValueIdx

/-- The image and the row a point and a row of its tile name. -/
abbrev imageOf (n : ℕ) : Fin 32 := ⟨n / 128 % 32, Nat.mod_lt _ (by decide)⟩
abbrev rowOf (n : ℕ) (h : Fin 4) : Fin 512 := ⟨4 * (n % 128) + h.val, by have := h.isLt; omega⟩

/-- Point n's addend at (c, k). -/
def tileCount (x : Vec Ideal S32x512x512x3 .f32) (n : ℕ) (ch : Fin 3) (k : Fin 384) : EReal :=
  ∑ w : Fin 512, ∑ h : Fin 4, hit (x (ix4 (imageOf n) (rowOf n h) w ch)) k.val

/-- The accumulator after point n: the addends of the image's points up to n. -/
def accAfter (x : Vec Ideal S32x512x512x3 .f32) (n : ℕ) : Vec Ideal S3x384 .f32 :=
  fun i => ∑ s ∈ Finset.range (n % 128 + 1), tileCount x (128 * (n / 128) + s) (i 0) (i 1)

theorem accAfter_apply (x : Vec Ideal S32x512x512x3 .f32) (n : ℕ) (ch : Fin 3) (k : Fin 384) :
    accAfter x n (ix2 ch k) = ∑ s ∈ Finset.range (n % 128 + 1), tileCount x (128 * (n / 128) + s) ch k := rfl

/-- The tile step on a block that is point n's rows of the image: the addend of point n. -/
theorem tile_eq (x : Vec Ideal S32x512x512x3 .f32) (blk : Vec Ideal S1x4x512x3 .f32) (n : ℕ)
    (hblk : ∀ (h : Fin 4) (w : Fin 512) (ch : Fin 3), blk (ix4 (0 : Fin 1) h w ch) = x (ix4 (imageOf n) (rowOf n h) w ch))
    (ch : Fin 3) (k : Fin 384) :
    (∑ w : Fin 512, ∑ h : Fin 4, hit (blk (ix4 (0 : Fin 1) h w ch)) k.val) = tileCount x n ch k :=
  Finset.sum_congr rfl fun w _ => Finset.sum_congr rfl fun h _ => by rw [hblk]

/-- At the first point of an image the accumulator ends at that point's addend. -/
theorem step_first (x : Vec Ideal S32x512x512x3 .f32) (blk : Vec Ideal S1x4x512x3 .f32) (n : ℕ) (h0 : n % 128 = 0)
    (hblk : ∀ (h : Fin 4) (w : Fin 512) (ch : Fin 3), blk (ix4 (0 : Fin 1) h w ch) = x (ix4 (imageOf n) (rowOf n h) w ch)) :
    k0_pay2 (F := Ideal) blk (k0_pay1 (F := Ideal)) = accAfter x n := by
  funext i
  obtain ⟨ch, k, rfl⟩ : ∃ (ch : Fin 3) (k : Fin 384), i = ix2 ch k := ⟨i 0, i 1, eq_ix2 i⟩
  rw [pay2_apply, pay1_apply, zero_add, tile_eq x blk n hblk, accAfter_apply, h0, Finset.sum_range_one,
    show 128 * (n / 128) + 0 = n from by omega]

/-- At a later point of an image the accumulator gains that point's addend. -/
theorem step_next (x : Vec Ideal S32x512x512x3 .f32) (blk : Vec Ideal S1x4x512x3 .f32) (n : ℕ) (h0 : ¬(n + 1) % 128 = 0)
    (hblk : ∀ (h : Fin 4) (w : Fin 512) (ch : Fin 3),
      blk (ix4 (0 : Fin 1) h w ch) = x (ix4 (imageOf (n + 1)) (rowOf (n + 1) h) w ch)) :
    k0_pay2 (F := Ideal) blk (accAfter x n) = accAfter x (n + 1) := by
  funext i
  obtain ⟨ch, k, rfl⟩ : ∃ (ch : Fin 3) (k : Fin 384), i = ix2 ch k := ⟨i 0, i 1, eq_ix2 i⟩
  rw [pay2_apply, tile_eq x blk (n + 1) hblk, accAfter_apply, accAfter_apply,
    show (n + 1) % 128 = n % 128 + 1 from by omega, show (n + 1) / 128 = n / 128 from by omega,
    Finset.sum_range_succ _ (n % 128 + 1), show 128 * (n / 128) + (n % 128 + 1) = n + 1 from by omega]

/-- 128 tiles of 4 rows are the 512 rows. -/
theorem sum_tiles_rows (g : Fin 512 → EReal) :
    (∑ s : Fin 128, ∑ h : Fin 4, g ⟨4 * s.val + h.val, by have := s.isLt; have := h.isLt; omega⟩) = ∑ r : Fin 512, g r := by
  have e1 : (∑ s : Fin 128, ∑ h : Fin 4, g ⟨4 * s.val + h.val, by have := s.isLt; have := h.isLt; omega⟩)
      = ∑ p : Fin 128 × Fin 4, g ⟨4 * p.1.val + p.2.val, by have := p.1.isLt; have := p.2.isLt; omega⟩ :=
    (Fintype.sum_prod_type (fun p : Fin 128 × Fin 4 =>
      (g ⟨4 * p.1.val + p.2.val, by have := p.1.isLt; have := p.2.isLt; omega⟩ : EReal))).symm
  rw [e1]
  refine Fintype.sum_equiv (finProdFinEquiv (m := 128) (n := 4))
    (fun p : Fin 128 × Fin 4 => (g ⟨4 * p.1.val + p.2.val, by have := p.1.isLt; have := p.2.isLt; omega⟩ : EReal))
    (fun r : Fin 512 => g r) fun p => ?_
  refine congrArg g (Fin.ext ?_)
  show 4 * p.1.val + p.2.val = p.2.val + 4 * p.1.val
  omega

/-- THE IMAGE'S COUNT: after the last point of image q the accumulator at (c, k) is the count of bin k in channel c. -/
theorem accAfter_last (x : Vec Ideal S32x512x512x3 .f32) (n : ℕ) (hn : n < 4096) (h127 : n % 128 = 127) (ch : Fin 3) (k : Fin 384) :
    accAfter x n (ix2 ch k) = count x ⟨n / 128, by omega⟩ ch k.val := by
  rw [accAfter_apply, h127, Finset.sum_range]
  have e : ∀ s : Fin 128, tileCount x (128 * (n / 128) + s.val) ch k
      = ∑ w : Fin 512, ∑ h : Fin 4, hit (x (ix4 (⟨n / 128, by omega⟩ : Fin 32) (⟨4 * s.val + h.val, by have := s.isLt; have := h.isLt; omega⟩ : Fin 512) w ch)) k.val := by
    intro s
    unfold tileCount
    refine Finset.sum_congr rfl fun w _ => Finset.sum_congr rfl fun h _ => ?_
    have hs := s.isLt
    have hh := h.isLt
    have e1 : imageOf (128 * (n / 128) + s.val) = (⟨n / 128, by omega⟩ : Fin 32) := Fin.ext (by show (128 * (n / 128) + s.val) / 128 % 32 = n / 128; omega)
    have e2 : rowOf (128 * (n / 128) + s.val) h = (⟨4 * s.val + h.val, by omega⟩ : Fin 512) := Fin.ext (by show 4 * ((128 * (n / 128) + s.val) % 128) + h.val = 4 * s.val + h.val; omega)
    rw [e1, e2]
  rw [Finset.sum_congr rfl fun s _ => e s]
  unfold count
  rw [Finset.sum_comm]
  conv_rhs => rw [Finset.sum_comm]
  refine Finset.sum_congr rfl fun w _ => ?_
  exact sum_tiles_rows fun r => hit (x (ix4 (⟨n / 128, by omega⟩ : Fin 32) r w ch)) k.val

end Cert.Hist

end
-- ==== Proof.HistKernel.lean ====
/-
  The kernel's result array is the normalized histogram of its argument.

  Grid point t stages rows 4 (t mod 128) … 4 (t mod 128) + 3 of image t / 128.  By induction on the point the
  accumulator after point t is the sum of the addends of the image's points up to t; the image's last point
  (t mod 128 = 127) stores the normalized transpose of columns 1 … 256 of that sum into the output block, which is
  block t / 128 of the result array, and it is the one point of the image that writes its block back.  The 32 blocks
  cover the array.
-/
import proofs.«125191_j85787676770927_1_alg».proof.Proof.Gen.KernelIdeal.Value
import proofs.«125191_j85787676770927_1_alg».proof.Proof.HistPieces
import proofs.«125191_j85787676770927_1_alg».proof.Proof.HistFold
import Idealize.ShloMosaic.Lib.Pipeline.Value

set_option maxRecDepth 16384

noncomputable section

namespace Cert.KernelIdeal.HistValue

open Cert.KernelIdeal Cert.KernelIdeal.Gen Cert.KernelIdeal.Pieces Cert.Hist
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The image array as the region finds it, and the block a point stages, at their literal types. -/
abbrev image (c : Dev nD) : Vec Ideal S32x512x512x3 .f32 := V m c main_arg0
abbrev tile (c : Dev nD) (t : Fin cfg0.N) : Vec Ideal S1x4x512x3 .f32 := iblk m c 0 t

/-- The printed index maps over the grid: the input's block is (t / 128, t mod 128, 0, 0), the output's (t / 128, 0, 0). -/
theorem idx_in : ∀ t : Fin cfg0.N, win0_0.index t (0 : Fin 4) = t.val / 128 ∧ win0_0.index t (1 : Fin 4) = t.val % 128
    ∧ win0_0.index t (2 : Fin 4) = 0 ∧ win0_0.index t (3 : Fin 4) = 0 :=
  (by decide +kernel : ∀ t : Fin grid0.N, win0_0.index t (0 : Fin 4) = t.val / 128 ∧ win0_0.index t (1 : Fin 4) = t.val % 128
    ∧ win0_0.index t (2 : Fin 4) = 0 ∧ win0_0.index t (3 : Fin 4) = 0)
theorem idx_out : ∀ t : Fin cfg0.N, win0_1.index t (0 : Fin 3) = t.val / 128 ∧ win0_1.index t (1 : Fin 3) = 0
    ∧ win0_1.index t (2 : Fin 3) = 0 :=
  (by decide +kernel : ∀ t : Fin grid0.N, win0_1.index t (0 : Fin 3) = t.val / 128 ∧ win0_1.index t (1 : Fin 3) = 0
    ∧ win0_1.index t (2 : Fin 3) = 0)

/-- The staged block's pixel (h, w, c) is the image's pixel at the point's image and row. -/
theorem tile_apply (c : Dev nD) (t : Fin cfg0.N) (h : Fin 4) (w : Fin 512) (ch : Fin 3) :
    tile m c t (ix4 (0 : Fin 1) h w ch) = image m c (ix4 (imageOf t.val) (rowOf t.val h) w ch) := by
  obtain ⟨e0, e1, e2, e3⟩ := idx_in t
  have hN : t.val < 4096 := lt_of_lt_of_eq t.isLt (show cfg0.N = 4096 from N_0)
  show iblk m c 0 t (ix4 (0 : Fin 1) h w ch) = _
  unfold iblk
  rw [View.read_apply]
  show V m c main_arg0 _ = V m c main_arg0 _
  refine congrArg (V m c main_arg0) (funext fun a => Fin.ext ?_)
  match a with
  | ⟨0, _⟩ => show win0_0.index t (0 : Fin 4) * 1 + 1 * 0 = t.val / 128 % 32; omega
  | ⟨1, _⟩ => show win0_0.index t (1 : Fin 4) * 4 + 1 * h.val = 4 * (t.val % 128) + h.val; omega
  | ⟨2, _⟩ => show win0_0.index t (2 : Fin 4) * 512 + 1 * w.val = w.val; omega
  | ⟨3, _⟩ => show win0_0.index t (3 : Fin 4) * 3 + 1 * ch.val = ch.val; omega

/-- THE ACCUMULATOR after every point is the sum of the image's addends so far — by induction on the point. -/
theorem scratch_eq (c : Dev nD) : ∀ (n : ℕ) (h : n < cfg0.N), (outsAt0 m c n h).2 = accAfter (image m c) n
  | 0, h => by
    rw [outsAt0_A m c ⟨0, h⟩ (Nat.zero_mod _) (by show ¬(0 : ℕ) % 128 = 127; omega)]
    dsimp only
    rw [scratch_first]
    exact step_first (image m c) (tile m c ⟨0, h⟩) 0 (Nat.zero_mod _) (tile_apply m c ⟨0, h⟩)
  | n + 1, h => by
    have hN : n + 1 < 4096 := lt_of_lt_of_eq h (show cfg0.N = 4096 from N_0)
    by_cases h0 : (n + 1) % 128 = 0
    · have h1 : ¬(n + 1) % 128 = 127 := by omega
      rw [outsAt0_A m c ⟨n + 1, h⟩ h0 h1]
      dsimp only
      rw [scratch_first]
      exact step_first (image m c) (tile m c ⟨n + 1, h⟩) (n + 1) h0 (tile_apply m c ⟨n + 1, h⟩)
    · by_cases h1 : (n + 1) % 128 = 127
      · rw [outsAt0_C m c ⟨n + 1, h⟩ h0 h1]
        dsimp only
        rw [scratch_last]
        show k0_pay2 (tile m c ⟨n + 1, h⟩) (outsAt0 m c n _).2 = _
        rw [scratch_eq c n]
        exact step_next (image m c) (tile m c ⟨n + 1, h⟩) n h0 (tile_apply m c ⟨n + 1, h⟩)
      · rw [outsAt0_B m c ⟨n + 1, h⟩ h0 h1]
        dsimp only
        rw [scratch_middle]
        show k0_pay2 (tile m c ⟨n + 1, h⟩) (outsAt0 m c n _).2 = _
        rw [scratch_eq c n]
        exact step_next (image m c) (tile m c ⟨n + 1, h⟩) n h0 (tile_apply m c ⟨n + 1, h⟩)

/-- Column k of the kept columns is column k + 1 of the accumulator. -/
theorem keptCols_idx (ch : Fin 3) (k : Fin 256) :
    keptCols.idx (ix2 ch k) = ix2 ch (⟨k.val + 1, by have := k.isLt; omega⟩ : Fin 384) := by
  funext a
  refine Fin.ext ?_
  match a with
  | ⟨0, _⟩ => show 0 + 1 * ch.val = ch.val; omega
  | ⟨1, _⟩ => show 1 + 1 * k.val = k.val + 1; omega

/-- THE OUTPUT BLOCK of an image's last point is the normalized histogram of the image. -/
theorem out_eq (c : Dev nD) (t : Fin cfg0.N) (h127 : t.val % 128 = 127) (y : S1x256x3.Idx) :
    (outsAt0 m c t.val t.isLt).1 y
      = result (image m c) (ix3 (⟨t.val / 128, by have := lt_of_lt_of_eq t.isLt (show cfg0.N = 4096 from N_0); omega⟩ : Fin 32) (y 1) (y 2)) := by
  have hN : t.val < 4096 := lt_of_lt_of_eq t.isLt (show cfg0.N = 4096 from N_0)
  have h0 : ¬t.val % 128 = 0 := by omega
  obtain ⟨u, k, ch, rfl⟩ : ∃ (u : Fin 1) (k : Fin 256) (ch : Fin 3), y = ix3 u k ch := ⟨y 0, y 1, y 2, eq_ix3 y⟩
  have hs : k0_pay2 (F := Ideal) (tile m c t) (outsAt0 m c (t.val - 1) (Nat.lt_of_le_of_lt (Nat.sub_le _ _) t.isLt)).2
      = accAfter (image m c) t.val := by
    have e := scratch_eq m c t.val t.isLt
    rw [outsAt0_C m c t h0 h127] at e
    dsimp only at e
    rw [scratch_last] at e
    exact e
  rw [outsAt0_C m c t h0 h127]
  dsimp only
  rw [out_last]
  show k0_pay3 (F := Ideal) (fun j => k0_pay2 (tile m c t) (outsAt0 m c (t.val - 1) _).2 (keptCols.idx j)) (ix3 u k ch) = _
  rw [hs, pay3_apply, result_apply]
  refine congrArg (fun g => normalize g k) (funext fun k' => ?_)
  show accAfter (image m c) t.val (keptCols.idx (ix2 ch k')) = _
  rw [keptCols_idx, accAfter_last (image m c) t.val hN h127]

/-- WHAT AN IMAGE'S LAST POINT WRITES BACK is its block of the normalized histogram of the image array. -/
theorem flushed_eq (c : Dev nD) (t : Fin cfg0.N) (hf : (cfg0.win 1).flush t = true) :
    (dats m 0 c).flushed 1 t = ((cfg0.win 1).blk t).view.read (Elt Ideal) (result (image m c)) := by
  have h127 : t.val % 128 = 127 := (flush0_1 t).mp hf
  have hN : t.val < 4096 := lt_of_lt_of_eq t.isLt (show cfg0.N = 4096 from N_0)
  obtain ⟨e0, e1, e2⟩ := idx_out t
  rw [Value.flushed1]
  funext j
  show (outsAt0 m c t.val t.isLt).1 j = result (image m c) (((cfg0.win 1).blk t).view.emb j)
  rw [out_eq m c t h127 j]
  refine congrArg (result (image m c)) (funext fun a => Fin.ext ?_)
  have hj0 : (j 0).val < 1 := (j 0).isLt
  match a with
  | ⟨0, _⟩ => show t.val / 128 = win0_1.index t (0 : Fin 3) * 1 + 1 * (j 0).val; omega
  | ⟨1, _⟩ => show (j 1).val = win0_1.index t (1 : Fin 3) * 256 + 1 * (j 1).val; omega
  | ⟨2, _⟩ => show (j 2).val = win0_1.index t (2 : Fin 3) * 3 + 1 * (j 2).val; omega

/-- THE RESULT ARRAY after the run: every index lies in the block of its image's last point. -/
theorem final (c : Dev nD) : (dats m 0 c).arrAt 1 cfg0.N = result (image m c) :=
  (dats m 0 c).arrAt_eq_of_cover 1 (result (image m c)) (flushed_eq m c) fun i => by
    have hi0 : (i 0).val < 32 := (i 0).isLt
    have hi1 : (i 1).val < 256 := (i 1).isLt
    have hi2 : (i 2).val < 3 := (i 2).isLt
    have hlt : 128 * (i 0).val + 127 < cfg0.N := by rw [show cfg0.N = 4096 from N_0]; omega
    refine ⟨⟨128 * (i 0).val + 127, hlt⟩, (flush0_1 _).mpr (by show (128 * (i 0).val + 127) % 128 = 127; omega), ?_⟩
    obtain ⟨e0, e1, e2⟩ := idx_out ⟨128 * (i 0).val + 127, hlt⟩
    have e0' : win0_1.index ⟨128 * (i 0).val + 127, hlt⟩ (0 : Fin 3) = (i 0).val := by
      rw [e0]; show (128 * (i 0).val + 127) / 128 = (i 0).val; omega
    show i ∈ ((View.whole main_v0).slice (win0_1.rect ⟨128 * (i 0).val + 127, hlt⟩)).set
    rw [View.set_slice_whole, Rect.mem_set_unit]
    intro a
    match a with
    | ⟨0, _⟩ =>
      show win0_1.index ⟨128 * (i 0).val + 127, hlt⟩ (0 : Fin 3) * 1 ≤ (i 0).val
        ∧ (i 0).val < win0_1.index ⟨128 * (i 0).val + 127, hlt⟩ (0 : Fin 3) * 1 + 1
      omega
    | ⟨1, _⟩ =>
      show win0_1.index ⟨128 * (i 0).val + 127, hlt⟩ (1 : Fin 3) * 256 ≤ (i 1).val
        ∧ (i 1).val < win0_1.index ⟨128 * (i 0).val + 127, hlt⟩ (1 : Fin 3) * 256 + 256
      omega
    | ⟨2, _⟩ =>
      show win0_1.index ⟨128 * (i 0).val + 127, hlt⟩ (2 : Fin 3) * 3 ≤ (i 2).val
        ∧ (i 2).val < win0_1.index ⟨128 * (i 0).val + 127, hlt⟩ (2 : Fin 3) * 3 + 3
      omega

/-- THE RUN: every execution ends with the result array at the normalized histogram of the argument, the argument
    unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.HistValue

end
-- ==== Proof.HistRefSegment.lean ====
/-
  The reference's segment word.

  Pixel number e of the flattened image is pixel (e / 786432, e / 1536 mod 512, e / 3 mod 512, e mod 3).  Its segment
  word is ((image · 3 + channel) · 257 + bin word); the 32-bit arithmetic does not wrap, and since a bin word is at
  most 256 the image, the channel and the bin word can be read back from the sum.
-/
import proofs.«125191_j85787676770927_1_alg».proof.Proof.Gen.ReferenceIdeal.Read
import proofs.«125191_j85787676770927_1_alg».proof.Proof.HistSpec
import Idealize.ShloMosaic.Lib.Pipeline.Value
import Idealize.ShloMosaic.Lib.ValueIdx
import Idealize.ShloMosaic.PureOps.Ideal.Laws

set_option maxRecDepth 16384

noncomputable section

namespace Cert.ReferenceIdeal.HistValue

open Cert.ReferenceIdeal Cert.ReferenceIdeal.Gen Cert.ReferenceIdeal.Read Cert.Hist
open Idealize.ShloMosaic Idealize.ShloMosaic.ValueIdx

/-- The pixel the flattened image's position e names. -/
abbrev pix (e : Fin 25165824) : S32x512x512x3.Idx :=
  ix4 (⟨e.val / 786432, by have := e.isLt; omega⟩ : Fin 32) (⟨e.val / 1536 % 512, Nat.mod_lt _ (by decide)⟩ : Fin 512)
    (⟨e.val / 3 % 512, Nat.mod_lt _ (by decide)⟩ : Fin 512) (⟨e.val % 3, Nat.mod_lt _ (by decide)⟩ : Fin 3)

/-- The reference's bin word of a pixel is the specification's: its divisor, the larger of the width and the floor, is
    the width. -/
theorem bins_ref (x : (⟨S32x512x512x3, .f32⟩ : BufTy).Contents (Elt Ideal)) (i : S32x512x512x3.Idx) :
    val_main_v5 (F := Ideal) x i = binWord (x i) := by
  rw [val_main_v5_apply, val_main_v4_apply, val_main_call0_v4_apply, val_main_call0_v3_apply, val_main_c_1_apply,
    val_main_call0_v2_apply, val_main_call0_v1_apply, val_main_call0_v0_apply, val_main_c_apply, val_main_v3_apply,
    val_main_v2_apply, val_main_v1_apply, val_main_v0_apply, val_main_cst_apply, val_main_cst_0_apply]
  show Ideal.fptosi 32 (min hi (max lo (Ideal.liftRound Int.floor (Ideal.div (x i) (max width floorTotal))))) = _
  rw [max_width_floorTotal]
  rfl

/-- Word arithmetic without wrap-around: (a · 3 + c) · 257 + w for an image number, a channel number and a bin word. -/
theorem word_arith (a c : ℕ) (ha : a < 32) (hc : c < 3) (w : BitVec 32) (hw : w.toNat ≤ 256) :
    ((BitVec.ofNat 32 a * 3#32 + BitVec.ofNat 32 c) * 257#32 + w).toInt = (((a * 3 + c) * 257 + w.toNat : ℕ) : ℤ) := by
  have hn : ((BitVec.ofNat 32 a * 3#32 + BitVec.ofNat 32 c) * 257#32 + w).toNat = (a * 3 + c) * 257 + w.toNat := by
    simp only [BitVec.toNat_add, BitVec.toNat_mul, BitVec.toNat_ofNat]
    omega
  rw [BitVec.toInt_eq_toNat_cond, hn, if_pos (by omega)]

/-- The segment word of pixel number e, read signed. -/
theorem seg_toInt (x : (⟨S32x512x512x3, .f32⟩ : BufTy).Contents (Elt Ideal)) (e : Fin 25165824) :
    (val_main_v22 (F := Ideal) x (ix2 e (0 : Fin 1))).toInt
      = (((e.val / 786432 * 3 + e.val % 3) * 257 + (binWord (x (pix e))).toNat : ℕ) : ℤ) := by
  have he := e.isLt
  have hj : idx_main_v19 (idx_main_v22 (ix2 e (0 : Fin 1))) = pix e := by
    funext a; refine Fin.ext ?_
    match a with
    | ⟨0, _⟩ => rfl
    | ⟨1, _⟩ => rfl
    | ⟨2, _⟩ => rfl
    | ⟨3, _⟩ => rfl
  rw [val_main_v22_apply, val_main_v19_apply, hj, val_main_v18_apply, bins_ref, val_main_v17_apply, val_main_v16_apply,
    val_main_v14_apply, val_main_v15_apply, val_main_c_3_apply, val_main_v12_apply, val_main_v11_apply, val_main_v7_apply,
    val_main_v6_apply, val_main_v10_apply, val_main_c_2_apply, val_main_v13_apply, val_main_v9_apply, val_main_v8_apply]
  exact word_arith (e.val / 786432) (e.val % 3) (by omega) (Nat.mod_lt _ (by decide)) _ (binWord_le _)

/-- From a segment word the image, the channel and the bin word can be read back. -/
theorem seg_decode (x : (⟨S32x512x512x3, .f32⟩ : BufTy).Contents (Elt Ideal)) (e : Fin 25165824) (b : Fin 32) (c : Fin 3) (k : ℕ)
    (hk : k ≤ 256)
    (h : (val_main_v22 (F := Ideal) x (ix2 e (0 : Fin 1))).toInt = (((b.val * 3 + c.val) * 257 + k : ℕ) : ℤ)) :
    e.val / 786432 = b.val ∧ e.val % 3 = c.val ∧ (binWord (x (pix e))).toNat = k := by
  rw [seg_toInt] at h
  have hw := binWord_le (x (pix e))
  have h' : (e.val / 786432 * 3 + e.val % 3) * 257 + (binWord (x (pix e))).toNat = (b.val * 3 + c.val) * 257 + k := by
    exact_mod_cast h
  have he := e.isLt
  have hb := b.isLt
  have hc := c.isLt
  have h3 : e.val % 3 < 3 := Nat.mod_lt _ (by decide)
  refine ⟨by omega, by omega, by omega⟩

end Cert.ReferenceIdeal.HistValue

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.LibHostScatter.lean ====
/-
  The host's accumulating scatter into a vector, read at an index, over the extended reals.

  Operand [N], one destination word per update (indices [E, 1]), scalar updates [E]: element n of the result is the
  operand's element plus the sum of the updates whose destination word, read signed and not clamped, is n.  The statement
  is over the host operation itself and over ANY sizes N and E, for any dimension numbers equal to the vector scatter's:
  a proof about a particular program instantiates it at its literal sizes, and never has to compare the operation's
  unfolded sum with another at those sizes (at tens of millions of updates that comparison enumerates the index set).
-/
import proofs.«125191_j85787676770927_1_alg».proof.Proof.LibRowOps
import Idealize.ShloMosaic.PureOps.Contract

noncomputable section

namespace Idealize.ShloMosaic.RowOps

open Idealize.ShloMosaic Idealize.ShloMosaic.ValueIdx

/-- THE HOST'S VECTOR SCATTER-ADD READ AT n, at any sizes: the operand's element plus the updates summed over the
    positions whose destination word is n. -/
theorem host_vecScatterAdd_apply {N E w : Nat}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = vecScatter N E wf)
    (v : FVec Ideal ⟨1, ![N]⟩ .f32) (idx : IVec ⟨2, ![E, 1]⟩ w) (upd : FVec Ideal ⟨1, ![E]⟩ .f32) (n : Fin N) :
    Host.scatterAdd (F := Ideal) d v idx upd (ix1 n)
      = v (ix1 n) + ∑ e ∈ Finset.univ.filter (fun e : Fin E => (idx (ix2 e (0 : Fin 1))).toInt = (n.val : ℤ)),
          upd (ix1 e) := by
  subst hd
  exact vecScatterAdd_apply wf v idx upd n

end Idealize.ShloMosaic.RowOps

end
-- ==== Proof.HistRefCount.lean ====
/-
  The reference's scatter counts pixels.

  The scatter adds a one into segment n for every pixel whose segment word is n.  The pixels whose segment word is that
  of (image b, channel c, bin k) are exactly the pixels (h, w) of image b, channel c whose bin word is k, so the flat sum
  of ones over them is re-indexed by (row, column) and is the count of bin k.
-/
import proofs.«125191_j85787676770927_1_alg».proof.Proof.HistRefSegment
import proofs.«125191_j85787676770927_1_alg».proof.Proof.LibRowOps
import proofs.«125191_j85787676770927_1_alg».proof.Proof.LibHostScatter
import Idealize.ShloMosaic.Lib.Pipeline.Value
import Idealize.ShloMosaic.Lib.ValueIdx
import Idealize.ShloMosaic.PureOps.Ideal.Laws

set_option maxRecDepth 16384

noncomputable section

namespace Cert.ReferenceIdeal.HistValue

open Cert.ReferenceIdeal Cert.ReferenceIdeal.Gen Cert.ReferenceIdeal.Read Cert.Hist
open Idealize.ShloMosaic Idealize.ShloMosaic.ValueIdx Idealize.ShloMosaic.RowOps

/-- THE SCATTER at segment n: the number of pixels whose segment word is n, as a sum of ones. -/
theorem scatter_apply (x : (⟨S32x512x512x3, .f32⟩ : BufTy).Contents (Elt Ideal)) (n : Fin 24672) :
    val_main_v23 (F := Ideal) x (ix1 n)
      = ∑ e ∈ Finset.univ.filter (fun e : Fin 25165824 => (val_main_v22 (F := Ideal) x (ix2 e (0 : Fin 1))).toInt = (n.val : ℤ)),
          (1 : EReal) := by
  unfold val_main_v23
  refine (host_vecScatterAdd_apply Facts₀.scatter_S24672_S25165824x1_S25165824_n_0_0_1_wf
    scatter_S24672_S25165824x1_S25165824_n_0_0_1 rfl (val_main_v21 (F := Ideal)) (val_main_v22 (F := Ideal) x)
    (val_main_v20 (F := Ideal)) n).trans ?_
  rw [val_main_v21_apply, val_main_cst_5_apply,
    show FloatOps.ofBits (F := Ideal) .f32 0x00000000#32 = (0 : EReal) from Ideal.ofBits_zero_f32, zero_add]
  refine Finset.sum_congr rfl fun e _ => ?_
  rw [val_main_v20_apply, val_main_cst_4_apply]
  exact ofBits_one

/-- THE SEGMENT'S COUNT: the pixels whose segment word is that of (image b, channel c, bin k) are the pixels (h, w) of
    image b, channel c whose bin word is k. -/
theorem segment_count (x : (⟨S32x512x512x3, .f32⟩ : BufTy).Contents (Elt Ideal)) (b : Fin 32) (c : Fin 3) (k : ℕ) (hk : k ≤ 256) :
    (∑ e ∈ Finset.univ.filter (fun e : Fin 25165824 =>
        (val_main_v22 (F := Ideal) x (ix2 e (0 : Fin 1))).toInt = (((b.val * 3 + c.val) * 257 + k : ℕ) : ℤ)), (1 : EReal))
      = count x b c k := by
  have hb := b.isLt
  have hc := c.isLt
  have e1 : count x b c k
      = ∑ p ∈ Finset.univ.filter (fun p : Fin 512 × Fin 512 => (binWord (x (ix4 b p.1 p.2 c))).toNat = k), (1 : EReal) := by
    rw [Finset.sum_filter]
    exact (Fintype.sum_prod_type (fun p : Fin 512 × Fin 512 =>
      (if (binWord (x (ix4 b p.1 p.2 c))).toNat = k then (1 : EReal) else 0))).symm
  rw [e1]
  refine Finset.sum_nbij'
    (fun e : Fin 25165824 => ((⟨e.val / 1536 % 512, Nat.mod_lt _ (by decide)⟩ : Fin 512),
      (⟨e.val / 3 % 512, Nat.mod_lt _ (by decide)⟩ : Fin 512)))
    (fun p : Fin 512 × Fin 512 => (⟨((b.val * 512 + p.1.val) * 512 + p.2.val) * 3 + c.val,
      by have := p.1.isLt; have := p.2.isLt; omega⟩ : Fin 25165824)) ?_ ?_ ?_ ?_ ?_
  · intro e he
    rw [Finset.mem_filter] at he ⊢
    obtain ⟨hb', hc', hk'⟩ := seg_decode x e b c k hk he.2
    refine ⟨Finset.mem_univ _, ?_⟩
    have hp : pix e = ix4 b (⟨e.val / 1536 % 512, Nat.mod_lt _ (by decide)⟩ : Fin 512)
        (⟨e.val / 3 % 512, Nat.mod_lt _ (by decide)⟩ : Fin 512) c := by
      funext a; refine Fin.ext ?_
      match a with
      | ⟨0, _⟩ => exact hb'
      | ⟨1, _⟩ => rfl
      | ⟨2, _⟩ => rfl
      | ⟨3, _⟩ => exact hc'
    show (binWord (x (ix4 b _ _ c))).toNat = k
    rw [← hp]
    exact hk'
  · intro p hp
    rw [Finset.mem_filter] at hp ⊢
    have h1 := p.1.isLt
    have h2 := p.2.isLt
    refine ⟨Finset.mem_univ _, ?_⟩
    rw [seg_toInt]
    have hpix : pix (⟨((b.val * 512 + p.1.val) * 512 + p.2.val) * 3 + c.val, by omega⟩ : Fin 25165824) = ix4 b p.1 p.2 c := by
      funext a; refine Fin.ext ?_
      match a with
      | ⟨0, _⟩ => show (((b.val * 512 + p.1.val) * 512 + p.2.val) * 3 + c.val) / 786432 = b.val; omega
      | ⟨1, _⟩ => show (((b.val * 512 + p.1.val) * 512 + p.2.val) * 3 + c.val) / 1536 % 512 = p.1.val; omega
      | ⟨2, _⟩ => show (((b.val * 512 + p.1.val) * 512 + p.2.val) * 3 + c.val) / 3 % 512 = p.2.val; omega
      | ⟨3, _⟩ => show (((b.val * 512 + p.1.val) * 512 + p.2.val) * 3 + c.val) % 3 = c.val; omega
    rw [hpix, hp.2]
    have ea : (((b.val * 512 + p.1.val) * 512 + p.2.val) * 3 + c.val) / 786432 = b.val := by omega
    have ec : (((b.val * 512 + p.1.val) * 512 + p.2.val) * 3 + c.val) % 3 = c.val := by omega
    show ((((((b.val * 512 + p.1.val) * 512 + p.2.val) * 3 + c.val) / 786432 * 3
      + (((b.val * 512 + p.1.val) * 512 + p.2.val) * 3 + c.val) % 3) * 257 + k : ℕ) : ℤ) = _
    rw [ea, ec]
  · intro e he
    rw [Finset.mem_filter] at he
    obtain ⟨hb', hc', -⟩ := seg_decode x e b c k hk he.2
    have hlt := e.isLt
    refine Fin.ext ?_
    show ((b.val * 512 + e.val / 1536 % 512) * 512 + e.val / 3 % 512) * 3 + c.val = e.val
    omega
  · intro p hp
    have h1 := p.1.isLt
    have h2 := p.2.isLt
    refine Prod.ext (Fin.ext ?_) (Fin.ext ?_)
    · show (((b.val * 512 + p.1.val) * 512 + p.2.val) * 3 + c.val) / 1536 % 512 = p.1.val; omega
    · show (((b.val * 512 + p.1.val) * 512 + p.2.val) * 3 + c.val) / 3 % 512 = p.2.val; omega
  · intro e _
    rfl

end Cert.ReferenceIdeal.HistValue

end
-- ==== Proof.HistReference.lean ====
/-
  The reference's result is the normalized histogram of its argument.

  After the scatter, the reshape and the slice that drops bin 0, element (b, c, k) is the count of bin k + 1 of image b,
  channel c; the row total (zero plus the sum), the floor, the quotient and the transpose are read one operation at a
  time and are the specification's normalization.
-/
import proofs.«125191_j85787676770927_1_alg».proof.Proof.HistRefCount
import Idealize.ShloMosaic.Lib.Pipeline.Value
import Idealize.ShloMosaic.Lib.ValueIdx
import Idealize.ShloMosaic.PureOps.Ideal.Laws

set_option maxRecDepth 16384

noncomputable section

namespace Cert.ReferenceIdeal.HistValue

open Cert.ReferenceIdeal Cert.ReferenceIdeal.Gen Cert.ReferenceIdeal.Read Cert.Hist
open Idealize.ShloMosaic Idealize.ShloMosaic.ValueIdx

/-- The kept counts: after the reshape and the slice, element (b, c, k) is the count of bin k + 1. -/
theorem hist_ref (x : (⟨S32x512x512x3, .f32⟩ : BufTy).Contents (Elt Ideal)) (b : Fin 32) (c : Fin 3) (k : Fin 256) :
    val_main_v25 (F := Ideal) x (ix3 b c k) = count x b c (k.val + 1) := by
  have hb := b.isLt
  have hc := c.isLt
  have hk := k.isLt
  have e : idx_main_v24 (idx_main_v25 (ix3 b c k))
      = ix1 (⟨(b.val * 3 + c.val) * 257 + (k.val + 1), by omega⟩ : Fin 24672) := by
    funext a; refine Fin.ext ?_
    match a with
    | ⟨0, _⟩ => show (b.val * 3 + c.val) * 257 + (1 + k.val) = (b.val * 3 + c.val) * 257 + (k.val + 1); omega
  rw [val_main_v25_apply, val_main_v24_apply, e, scatter_apply]
  exact segment_count x b c (k.val + 1) (by omega)

/-- THE REFERENCE'S LAST STAGE is the normalized histogram. -/
theorem ref_eq (x : (⟨S32x512x512x3, .f32⟩ : BufTy).Contents (Elt Ideal)) : val_main_v32 (F := Ideal) x = result x := by
  funext j
  obtain ⟨b, k, c, rfl⟩ : ∃ (b : Fin 32) (k : Fin 256) (c : Fin 3), j = ix3 b k c := ⟨j 0, j 1, j 2, eq_ix3 j⟩
  have hsum : val_main_v26 (F := Ideal) x (ix2 b c) = ∑ k' : Fin 256, count x b c (k'.val + 1) := by
    rw [val_main_v26_apply, val_main_cst_6_apply]
    show Ideal.ofBits .f32 0x00000000#32 + _ = _
    rw [Ideal.ofBits_zero_f32, zero_add]
    refine Finset.sum_congr rfl fun k' _ => ?_
    have e : idx_main_v26 (ix2 b c) k' = ix3 b c k' := by
      funext a; refine Fin.ext ?_
      match a with
      | ⟨0, _⟩ => rfl
      | ⟨1, _⟩ => rfl
      | ⟨2, _⟩ => rfl
    rw [e, hist_ref]
  have hden : val_main_v30 (F := Ideal) x (ix3 b c k) = max (∑ k' : Fin 256, count x b c (k'.val + 1)) floorTotal := by
    have e1 : idx_main_v27 (idx_main_v30 (ix3 b c k)) = ix2 b c := by
      funext a; refine Fin.ext ?_
      match a with
      | ⟨0, _⟩ => rfl
      | ⟨1, _⟩ => rfl
    rw [val_main_v30_apply, val_main_v29_apply, val_main_v27_apply, val_main_v28_apply, val_main_cst_7_apply, e1, hsum]
    rfl
  have e32 : idx_main_v32 (ix3 b k c) = ix3 b c k := by
    funext a; refine Fin.ext ?_
    match a with
    | ⟨0, _⟩ => rfl
    | ⟨1, _⟩ => rfl
    | ⟨2, _⟩ => rfl
  rw [result_apply, val_main_v32_apply, e32, val_main_v31_apply, hden, hist_ref]
  rfl

end Cert.ReferenceIdeal.HistValue

end
-- ==== Proof.lean ====
/-
  A per-image, per-channel histogram of pixel values over 257 uniform bins, bin 0 dropped, each kept bin divided by
  the larger of the kept bins' total and a small floor; the result is [image, bin, channel].

  The kernel walks each image in 128 tiles of 4 rows, compares every pixel's bin word with the lane numbers 0 … 383,
  sums the ones over the tile and adds them into a [3, 384] accumulator that is zeroed at the image's first tile; at
  the last tile it normalizes columns 1 … 256 and stores their transpose.  The reference adds a one into segment
  ((image · 3 + channel) · 257 + bin word) for every pixel, reshapes, drops bin 0, normalizes and transposes.

  Over the extended reals both are one function of the image array (HistSpec: `Cert.Hist.result`).  The bin word is the
  same expression on both sides (the reference's divisor, the larger of the width and the floor, is the width), and the
  clip keeps it in 0 … 256 whatever the pixel is, so no finiteness of the input is used.  The kernel's count is a
  sum of ones over tiles, rows and columns, regrouped into the sum over the image's 512 rows (HistFold, HistKernel); the
  reference's is a sum of ones over the flattened pixels with one segment word, re-indexed by (row, column) because the
  segment word determines image, channel and bin (HistReference).  Sums of ones and zeros are re-ordered freely; the
  only other laws used are 0 + a = a and the monotonicity of the two bit patterns' values.

  The three frames are the generated runs; the idealization rewrote nothing, so the preservation claim is trivial.
-/
import proofs.«125191_j85787676770927_1_alg».proof.Defs
import proofs.«125191_j85787676770927_1_alg».proof.Proof.Gen.Kernel
import proofs.«125191_j85787676770927_1_alg».proof.Proof.Gen.Kernel.Skeleton
import proofs.«125191_j85787676770927_1_alg».proof.Proof.Gen.Kernel.Launch
import proofs.«125191_j85787676770927_1_alg».proof.Proof.Gen.Kernel.Points
import proofs.«125191_j85787676770927_1_alg».proof.Proof.Gen.Kernel.Frame
import proofs.«125191_j85787676770927_1_alg».proof.Proof.Gen.KernelIdeal
import proofs.«125191_j85787676770927_1_alg».proof.Proof.Gen.KernelIdeal.Skeleton
import proofs.«125191_j85787676770927_1_alg».proof.Proof.Gen.KernelIdeal.Launch
import proofs.«125191_j85787676770927_1_alg».proof.Proof.Gen.KernelIdeal.Points
import proofs.«125191_j85787676770927_1_alg».proof.Proof.Gen.KernelIdeal.Frame
import proofs.«125191_j85787676770927_1_alg».proof.Proof.Gen.ReferenceIdeal
import proofs.«125191_j85787676770927_1_alg».proof.Proof.Gen.KernelIdeal.Value
import proofs.«125191_j85787676770927_1_alg».proof.Proof.Gen.ReferenceIdeal.Run
import proofs.«125191_j85787676770927_1_alg».proof.Proof.Gen.ReferenceIdeal.Read
import proofs.«125191_j85787676770927_1_alg».proof.Proof.Gen.Pre_finite_inputs
import proofs.«125191_j85787676770927_1_alg».proof.Proof.HistKernel
import proofs.«125191_j85787676770927_1_alg».proof.Proof.HistReference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the normalized histogram of the argument: the kernel's run by the fold
    over tiles, the reference's run by its last stage read back; the arguments agree. -/
theorem algebraic : Cert.algebraic_KernelIdeal_ReferenceIdeal := fun m ρ m' ρ' _ hagree =>
  ⟨fun c => Cert.Hist.result (m ((c.tc : Thread Cert.KernelIdeal.nD Cert.KernelIdeal.τ).loc Cert.KernelIdeal.main_arg0)),
    Cert.KernelIdeal.HistValue.run m ρ,
    (θ_run Cert.ReferenceIdeal.defs _ _).mono (fun _ h c =>
        ⟨(h c).1.trans ((Cert.ReferenceIdeal.Read.val_main_v32_eq _).trans
          ((Cert.ReferenceIdeal.HistValue.ref_eq _).trans (congrArg Cert.Hist.result (hagree c)))), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
